-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 68
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x64, .f32⟩
  | .hbm, ⟨67, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Linear.lean ====
/-
  Region 0 of the kernel's @main, read as a value at the ideal instance: the linear transform.

  The pallas_call tiles the node axis in 10 blocks of 5000 rows. At grid point `t` the body loads rows
  `5000·t … 5000·t + 4999` of the feature matrix and the whole 128×128 weight, rounds both to bf16 (the identity on
  extended reals), and stores their product accumulated from the zero splat: entry `(r, q)` of the block is
  `∑ k, x (5000·t + r, k) · w (k, q)`. Block `t` of the output window sits at rows `5000·t …`, so every point writes
  back the restriction of ONE whole-array function, `prod x w (i) = ∑ k, x (i₀, k) · w (k, i₁)`, and the ten blocks
  cover the 50000 rows: the output array ends holding `prod` of the two input arrays as the region finds them.
-/
import proofs.«171715_j23175643530014_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2 eq_ix2)

/-- The matrix product of a 50000×128 array with a 128×128 array, entry by entry, on the extended reals. -/
def prod (x : FVec Ideal S50000x128 .f32) (w : FVec Ideal S128x128 .f32) : FVec Ideal S50000x128 .f32 :=
  fun i => ∑ k : Fin 128, x (ix2 (i 0) k) * w (ix2 k (i 1))

/-! ## The body's product at an index of the block -/

/-- The left operand's row coordinate is the output's row. -/
theorem lhs_axis0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted index. -/
theorem lhs_axis1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row coordinate is the contracted index. -/
theorem rhs_axis0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- The right operand's column coordinate is the output's column. -/
theorem rhs_axis1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `j` of the stored block is the sum over the contracted axis of row `j₀` of the loaded feature block times
    column `j₁` of the loaded weight: the two roundings to bf16 are the identity and the accumulator is zero. -/
theorem pay_apply (x0 : FVec Ideal S5000x128 .f32) (x1 : FVec Ideal S128x128 .f32) (j : S5000x128.Idx) :
    k0_pay1 (F := Ideal) x0 x1 j = ∑ k : Fin 128, x0 (ix2 (j 0) k) * x1 (ix2 k (j 1)) := by
  unfold k0_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = ix2 k (j 1) := funext fun a => Fin.ext (by
    match a with
    | ⟨0, _⟩ => exact (rhs_axis0 _ _).trans hk
    | ⟨1, _⟩ => exact rhs_axis1 _ _)
  exact congrArg₂ (fun a b : EReal => a * b) (congrArg x0 el) (congrArg x1 er)

/-! ## From the blocks to the array -/

variable (V : (c : Dev nD) → (b : Ref sig .tc) → Buf (Elt Ideal) ((c : Thread nD τ).loc b))

/-- The feature array as the region finds it. -/
abbrev xarr (c : Dev nD) : FVec Ideal S50000x128 .f32 := V c main_arg0
/-- The weight array as the region finds it. -/
abbrev warr (c : Dev nD) : FVec Ideal S128x128 .f32 := V c main_arg2
/-- The feature window's block at a point, and the weight window's. -/
abbrev xblk (c : Dev nD) (t : Fin cfg0.N) : FVec Ideal S5000x128 .f32 := iblk0 V c 0 t
abbrev wblk (c : Dev nD) (t : Fin cfg0.N) : FVec Ideal S128x128 .f32 := iblk0 V c 1 t

theorem origin : (![0, 0] : Fin 2 → Nat) = fun _ => 0 := funext fun a => by fin_cases a <;> rfl

/-- The printed index maps over the grid: the feature window and the output window are both at block row `t`,
    block column 0; the weight window stays at its one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `prod` of the two input arrays as the region finds them. -/
theorem flushed_eq (c : Dev nD) (t : Fin cfg0.N) :
    (dat0 V c).flushed 2 t = ((cfg0.win 2).blk t).view.read (Elt Ideal) (prod (xarr V c) (warr V c)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e00, e01, e10, e11, e20, e21⟩ := index_maps t
  funext j
  refine (pay_apply (xblk V c t) (wblk V c t) j).trans ?_
  show _ = prod (xarr V c) (warr V c) (((cfg0.win 2).blk t).view.emb j)
  unfold prod
  refine Finset.sum_congr rfl fun k _ => ?_
  have h0 : xblk V c t (ix2 (j 0) k) = xarr V c (ix2 ((((cfg0.win 2).blk t).view.emb j) 0) k) := by
    show V c main_arg0 (((cfg0.win 0).blk t).view.emb (ix2 (j 0) k)) = V c main_arg0 _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : wblk V c t (ix2 k (j 1)) = warr V c (ix2 k ((((cfg0.win 2).blk t).view.emb j) 1)) := by
    show V c main_arg2 (((cfg0.win 1).blk t).view.emb (ix2 k (j 1))) = V c main_arg2 _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) h0 h1

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every block row is some point's. -/
theorem point_of_row : ∀ q : Fin 10, ∃ t : Fin cfg0.N, win0_2.index t = ![q.val, 0] :=
  (by decide +kernel : ∀ q : Fin 10, ∃ t : Fin grid0.N, win0_2.index t = ![q.val, 0])

/-- The ten blocks cover the array: row `r` is in the block of point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := point_of_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two input arrays as the region finds them. -/
theorem final (c : Dev nD) : (dat0 V c).arrAt 2 cfg0.N = prod (xarr V c) (warr V c) :=
  (dat0 V c).arrAt_eq_of_cover 2 (prod (xarr V c) (warr V c)) (fun t _ => flushed_eq V c t) (cover)

end Cert.KernelIdeal.Linear

end
-- ==== Proof.Head.lean ====
/-
  Region 1 of the kernel's @main, read as a value at the ideal instance: the ReLU + linear head.

  The pallas_call tiles the node axis in 10 blocks of 5000 rows. At grid point `t` the body loads rows
  `5000·t … 5000·t + 4999` of the aggregated features, the whole 128×64 weight and the 1×64 bias row; takes the maximum
  of each feature with zero; rounds both matmul operands to bf16 (the identity on extended reals); multiplies into the
  zero splat; and adds the bias row broadcast down the rows. Entry `(r, q)` of the block is
  `(∑ k, max (a (5000·t + r, k)) 0 · w (k, q)) + b (0, q)`. Every point writes back the restriction of ONE whole-array
  function, `head a w b`, and the ten blocks cover the 50000 rows.
-/
import proofs.«171715_j23175643530014_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2 eq_ix2)

/-- The head as one function of whole arrays, entry by entry, on the extended reals: the features clamped below at
    the zero word's value, times the weight, plus the bias row. -/
def head (a : FVec Ideal S50000x128 .f32) (w : FVec Ideal S128x64 .f32) (b : FVec Ideal S1x64 .f32) : FVec Ideal S50000x64 .f32 :=
  fun i => (∑ k : Fin 128, max (a (ix2 (i 0) k)) (Ideal.ofBits .f32 0x00000000#32) * w (ix2 k (i 1))) + b (ix2 (0 : Fin 1) (i 1))

/-! ## The body's value at an index of the block -/

/-- The left operand's row coordinate is the output's row. -/
theorem lhs_axis0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted index. -/
theorem lhs_axis1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- The right operand's row coordinate is the contracted index. -/
theorem rhs_axis0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- The right operand's column coordinate is the output's column. -/
theorem rhs_axis1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product part of the stored block at an index: the clamped features' row against the weight's column. -/
theorem matmul_part (y : FVec Ideal S5000x128 .f32) (x1 : FVec Ideal S128x64 .f32) (j : S5000x64.Idx) :
    matmul (F := Ideal) dot_S5000x128_S128x64_S5000x64_1_0_0_1_n_n none y x1 (constant S5000x64 .f32 0x00000000#32) j = ∑ k : Fin 128, y (ix2 (j 0) k) * x1 (ix2 k (j 1)) := by
  refine (Ideal.matmul_constant_zero_apply dot_S5000x128_S128x64_S5000x64_1_0_0_1_n_n none y x1 j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = ix2 (j 0) k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = ix2 k (j 1) := funext fun a => Fin.ext (by
    match a with
    | ⟨0, _⟩ => exact (rhs_axis0 _ _).trans hk
    | ⟨1, _⟩ => exact rhs_axis1 _ _)
  exact congrArg₂ (fun a b : EReal => a * b) (congrArg y el) (congrArg x1 er)

/-- Entry `(p, q)` of the stored block: the two identity shape casts drop, the roundings are the identity, the product is
    the sum above over the clamped features, and the bias row is read at its one row. -/
theorem pay_apply (x0 : FVec Ideal S5000x128 .f32) (x1 : FVec Ideal S128x64 .f32) (x2 : FVec Ideal S1x64 .f32) (p : Fin 5000) (q : Fin 64) :
    k1_pay1 (F := Ideal) x0 x1 x2 (ix2 p q)
      = (∑ k : Fin 128, max (x0 (ix2 p k)) (Ideal.ofBits .f32 0x00000000#32) * x1 (ix2 k q)) + x2 (ix2 (0 : Fin 1) q) := by
  unfold k1_pay1
  simp only [shapeCast_self]
  refine congrArg₂ (fun a b : EReal => a + b) ?_ ?_
  · exact matmul_part _ x1 (ix2 p q)
  · exact ValueIdx.broadcastTo_1b_ab_apply x2 broadcasts_S1x64_S5000x64 p q

/-! ## From the blocks to the array -/

variable (V : (c : Dev nD) → (b : Ref sig .tc) → Buf (Elt Ideal) ((c : Thread nD τ).loc b))

/-- The three input arrays as the region finds them. -/
abbrev aarr (c : Dev nD) : FVec Ideal S50000x128 .f32 := V c main_v46
abbrev warr (c : Dev nD) : FVec Ideal S128x64 .f32 := V c main_arg4
abbrev barr (c : Dev nD) : FVec Ideal S1x64 .f32 := V c main_v47
/-- The three input windows' blocks at a point. -/
abbrev ablk (c : Dev nD) (t : Fin cfg1.N) : FVec Ideal S5000x128 .f32 := iblk1 V c 0 t
abbrev wblk (c : Dev nD) (t : Fin cfg1.N) : FVec Ideal S128x64 .f32 := iblk1 V c 1 t
abbrev bblk (c : Dev nD) (t : Fin cfg1.N) : FVec Ideal S1x64 .f32 := iblk1 V c 2 t

theorem origin : (![0, 0] : Fin 2 → Nat) = fun _ => 0 := funext fun a => by fin_cases a <;> rfl

/-- The printed index maps over the grid: the feature window and the output window are both at block row `t`,
    block column 0; the weight window and the bias window stay at their one block. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `head` of the three input arrays as the region finds them. -/
theorem flushed_eq (c : Dev nD) (t : Fin cfg1.N) :
    (dat1 V c).flushed 3 t = ((cfg1.win 3).blk t).view.read (Elt Ideal) (head (aarr V c) (warr V c) (barr V c)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x64) origin, View.ld_unit_zero (S := S1x64) origin]
  obtain ⟨e00, e01, e10, e11, e20, e21, e30, e31⟩ := index_maps t
  funext j
  obtain ⟨p, q, rfl⟩ : ∃ (p : Fin 5000) (q : Fin 64), j = ix2 p q := ⟨j 0, j 1, eq_ix2 j⟩
  refine (pay_apply (ablk V c t) (wblk V c t) (bblk V c t) p q).trans ?_
  show _ = head (aarr V c) (warr V c) (barr V c) (((cfg1.win 3).blk t).view.emb (ix2 p q))
  unfold head
  have hb : bblk V c t (ix2 (0 : Fin 1) q) = barr V c (ix2 (0 : Fin 1) ((((cfg1.win 3).blk t).view.emb (ix2 p q)) 1)) := by
    show V c main_v47 (((cfg1.win 2).blk t).view.emb (ix2 (0 : Fin 1) q)) = V c main_v47 _
    refine congrArg (V c main_v47) ?_
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  refine congrArg₂ (fun a b : EReal => a + b) (Finset.sum_congr rfl fun k _ => ?_) hb
  have h0 : ablk V c t (ix2 p k) = aarr V c (ix2 ((((cfg1.win 3).blk t).view.emb (ix2 p q)) 0) k) := by
    show V c main_v46 (((cfg1.win 0).blk t).view.emb (ix2 p k)) = V c main_v46 _
    refine congrArg (V c main_v46) ?_
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have h1 : wblk V c t (ix2 k q) = warr V c (ix2 k ((((cfg1.win 3).blk t).view.emb (ix2 p q)) 1)) := by
    show V c main_arg4 (((cfg1.win 1).blk t).view.emb (ix2 k q)) = V c main_arg4 _
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 64 + 1 * q.val = win1_3.index t (1 : Fin 2) * 64 + 1 * q.val; omega
  exact congrArg₂ (fun a b : EReal => max a (Ideal.ofBits .f32 0x00000000#32) * b) h0 h1

/-- An index of the array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v48).slice (win1_3.rect t)).set ↔ _
  rw [View.set_slice_whole, Rect.mem_set_unit]
  exact Iff.rfl

/-- Every block row is some point's. -/
theorem point_of_row : ∀ q : Fin 10, ∃ t : Fin cfg1.N, win1_3.index t = ![q.val, 0] :=
  (by decide +kernel : ∀ q : Fin 10, ∃ t : Fin grid1.N, win1_3.index t = ![q.val, 0])

/-- The ten blocks cover the array: row `r` is in the block of point `r / 5000`. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := point_of_row ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region: `head` of the three input arrays as the region finds them. -/
theorem final (c : Dev nD) : (dat1 V c).arrAt 3 cfg1.N = head (aarr V c) (warr V c) (barr V c) :=
  (dat1 V c).arrAt_eq_of_cover 3 (head (aarr V c) (warr V c) (barr V c)) (fun t _ => flushed_eq V c t) (cover)

end Cert.KernelIdeal.Head

end
-- ==== Proof.Chain.lean ====
/-
  The host side of the kernel's @main, read as values at the ideal instance, and the kernel's result.

  Between the two pallas_calls @main gathers rows of the linear transform's output along the edge sources, scales them by
  the symmetric degree normalisation, scatter-adds them along the edge targets and adds the convolution bias: `agg`, one
  function of the transform's output `h`, the source and target index vectors, the per-edge normalisation and the bias.
  The index vectors and the normalisation are computed before the first pallas_call from the edge list alone and no
  later operation writes them, so at the second pallas_call's entry they still hold what those first operations left; the
  first pallas_call's output array holds the whole matrix product of the features and the first weight. The second
  pallas_call then leaves the head of the aggregate, the second weight and the second bias laid out as one row.
-/
import proofs.«171715_j23175643530014_1_alg».proof.Proof.Gen.KernelIdeal.Frame
import proofs.«171715_j23175643530014_1_alg».proof.Proof.Linear
import proofs.«171715_j23175643530014_1_alg».proof.Proof.Head
import proofs.«171715_j23175643530014_1_alg».proof.Proof.RefRead
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

section Aggregate
variable {F : FTy → Type} [FloatOps F]

/-- The aggregation between the two pallas_calls: gather the rows of `h` at the sources `s` (a negative index wrapped
    by the number of nodes), scale row `e` by `n e`, scatter-add the rows at the targets `d` into zeros, add the bias `b`
    along the rows. -/
def agg (h : (⟨S50000x128, .f32⟩ : BufTy).Contents (Elt F)) (s d : (⟨S850000, .i32⟩ : BufTy).Contents (Elt F))
    (n : (⟨S850000, .f32⟩ : BufTy).Contents (Elt F)) (b : (⟨S128, .f32⟩ : BufTy).Contents (Elt F)) : (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 d)
      (mulf
        (Host.gather gather_S50000x128_S850000x1_S850000x128_1_0_n_n_0_1_1128 h
          (broadcastInDim S850000x1 ![0] bcast_S850000_S850000x1_0
            (select (cmpi .slt s (broadcastInDim S850000 ![] bcast_S_S850000 (constantI S_ 32 0#32)))
              (addi s (broadcastInDim S850000 ![] bcast_S_S850000 (constantI S_ 32 50000#32))) s)))
        (broadcastInDim S850000x128 ![0, 1] bcast_S850000x1_S850000x128_0_1
          (broadcastInDim S850000x1 ![0] bcast_S850000_S850000x1_0 n))))
    (broadcastInDim S50000x128 ![0, 1] bcast_S1x128_S50000x128_0_1 (broadcastInDim S1x128 ![1] bcast_S128_S1x128_1 b))

end Aggregate

section Reads
variable {F : FTy → Type} [FloatOps F]
variable (m : (ℓ : Loc nD τ sig) → Buf (Elt F) ℓ) (ρ : Dev nD → PrngReg)

/-! ## The second pallas_call's entry contents, from the first one's exit contents -/

set_option maxHeartbeats 4000000 in
/-- The aggregate at the second pallas_call's entry is `agg` of what the first one's exit contents hold. -/
theorem entry1_agg (c : Dev nD) : W5 m ρ c (Proc.devRef .tc main_v46)
    = agg (W4 m ρ c (Proc.devRef .tc main_v30)) (W4 m ρ c (Proc.devRef .tc main_v3)) (W4 m ρ c (Proc.devRef .tc main_v6))
        (W4 m ρ c (Proc.devRef .tc main_v29)) (W4 m ρ c (Proc.devRef .tc main_arg3)) := by
  dsimp only [W5, hostOps1]
  after_results_simp
  rfl

set_option maxHeartbeats 4000000 in
/-- The second weight at the second pallas_call's entry is what the first one's exit contents hold. -/
theorem entry1_w (c : Dev nD) : W5 m ρ c (Proc.devRef .tc main_arg4) = W4 m ρ c (Proc.devRef .tc main_arg4) := by
  dsimp only [W5, hostOps1]
  after_results_simp

set_option maxHeartbeats 4000000 in
/-- The bias row at the second pallas_call's entry is the second bias laid out as one row. -/
theorem entry1_b (c : Dev nD) : W5 m ρ c (Proc.devRef .tc main_v47)
    = shapeCast S1x64 (W4 m ρ c (Proc.devRef .tc main_arg5)) shapeCasts_S64_S1x64 := by
  dsimp only [W5, hostOps1]
  after_results_simp
  rfl

/-! ## The first pallas_call's exit contents, from its entry contents -/

/-- The first pallas_call has no window on the index vectors, the normalisation, the biases or the second weight: they
    leave it as they entered. -/
theorem exit0_src (c : Dev nD) : W4 m ρ c (Proc.devRef .tc main_v3) = W3 m ρ c (Proc.devRef .tc main_v3) := W4_of_ne m ρ c main_v3 (by decide)
theorem exit0_dst (c : Dev nD) : W4 m ρ c (Proc.devRef .tc main_v6) = W3 m ρ c (Proc.devRef .tc main_v6) := W4_of_ne m ρ c main_v6 (by decide)
theorem exit0_norm (c : Dev nD) : W4 m ρ c (Proc.devRef .tc main_v29) = W3 m ρ c (Proc.devRef .tc main_v29) := W4_of_ne m ρ c main_v29 (by decide)
theorem exit0_b1 (c : Dev nD) : W4 m ρ c (Proc.devRef .tc main_arg3) = W3 m ρ c (Proc.devRef .tc main_arg3) := W4_of_ne m ρ c main_arg3 (by decide)
theorem exit0_w2 (c : Dev nD) : W4 m ρ c (Proc.devRef .tc main_arg4) = W3 m ρ c (Proc.devRef .tc main_arg4) := W4_of_ne m ρ c main_arg4 (by decide)
theorem exit0_b2 (c : Dev nD) : W4 m ρ c (Proc.devRef .tc main_arg5) = W3 m ρ c (Proc.devRef .tc main_arg5) := W4_of_ne m ρ c main_arg5 (by decide)

/-! ## The first pallas_call's entry contents, from the launch memory -/

set_option maxHeartbeats 4000000 in
/-- No host operation writes the features. -/
theorem entry0_x (c : Dev nD) : W3 m ρ c (Proc.devRef .tc main_arg0) = m ((c.tc : Thread nD τ).loc main_arg0) := by
  dsimp only [W3, W2, W1, hostOps0, hostOps0_1, hostOps0_2]
  after_results_simp

set_option maxHeartbeats 4000000 in
/-- No host operation writes the first weight. -/
theorem entry0_w1 (c : Dev nD) : W3 m ρ c (Proc.devRef .tc main_arg2) = m ((c.tc : Thread nD τ).loc main_arg2) := by
  dsimp only [W3, W2, W1, hostOps0, hostOps0_1, hostOps0_2]
  after_results_simp

set_option maxHeartbeats 4000000 in
/-- No host operation writes the first bias. -/
theorem entry0_b1 (c : Dev nD) : W3 m ρ c (Proc.devRef .tc main_arg3) = m ((c.tc : Thread nD τ).loc main_arg3) := by
  dsimp only [W3, W2, W1, hostOps0, hostOps0_1, hostOps0_2]
  after_results_simp

set_option maxHeartbeats 4000000 in
/-- No host operation writes the second weight. -/
theorem entry0_w2 (c : Dev nD) : W3 m ρ c (Proc.devRef .tc main_arg4) = m ((c.tc : Thread nD τ).loc main_arg4) := by
  dsimp only [W3, W2, W1, hostOps0, hostOps0_1, hostOps0_2]
  after_results_simp

set_option maxHeartbeats 4000000 in
/-- No host operation writes the second bias. -/
theorem entry0_b2 (c : Dev nD) : W3 m ρ c (Proc.devRef .tc main_arg5) = m ((c.tc : Thread nD τ).loc main_arg5) := by
  dsimp only [W3, W2, W1, hostOps0, hostOps0_1, hostOps0_2]
  after_results_simp

set_option maxHeartbeats 4000000 in
/-- The source index vector: the edge list's first row followed by the self loops. -/
theorem entry0_src (c : Dev nD) : W3 m ρ c (Proc.devRef .tc main_v3) = Cert.ReferenceIdeal.ReadP.val_main_v3 (F := F) (m ((c.tc : Thread nD τ).loc main_arg1)) := by
  dsimp only [W3, W2, W1, hostOps0, hostOps0_1, hostOps0_2]
  after_results_simp
  rfl

set_option maxHeartbeats 4000000 in
/-- The target index vector: the edge list's second row followed by the self loops. -/
theorem entry0_dst (c : Dev nD) : W3 m ρ c (Proc.devRef .tc main_v6) = Cert.ReferenceIdeal.ReadP.val_main_v6 (F := F) (m ((c.tc : Thread nD τ).loc main_arg1)) := by
  dsimp only [W3, W2, W1, hostOps0, hostOps0_1, hostOps0_2]
  after_results_simp
  rfl

set_option maxHeartbeats 4000000 in
/-- The per-edge normalisation: the inverse square roots of the target degrees (zero where the degree is not positive) gathered at the sources and at the targets, multiplied. -/
theorem entry0_norm (c : Dev nD) : W3 m ρ c (Proc.devRef .tc main_v29) = Cert.ReferenceIdeal.ReadP.val_main_v29 (F := F) (m ((c.tc : Thread nD τ).loc main_arg1)) := by
  dsimp only [W3, W2, W1, hostOps0, hostOps0_1, hostOps0_2]
  after_results_simp
  rfl

end Reads

/-! ## The kernel's result -/

variable (m : (ℓ : Loc nD τ sig) → Buf (Elt Ideal) ℓ) (ρ : Dev nD → PrngReg)

/-- Its output array leaves it holding the matrix product of the features and the first weight as it found them. -/
theorem exit0_h (c : Dev nD) : W4 m ρ c (Proc.devRef .tc main_v30)
    = Linear.prod (W3 m ρ c (Proc.devRef .tc main_arg0)) (W3 m ρ c (Proc.devRef .tc main_arg2)) :=
  (W4_arr m ρ c 2).trans (Linear.final (V3 m ρ) c)

/-- The kernel's result array after @main: the head of the aggregated matrix product, as one function of the launch
    memory's argument arrays. -/
theorem result (c : Dev nD) : W6 m ρ c (Proc.devRef .tc main_v48)
    = Head.head
        (agg (Linear.prod (m ((c.tc : Thread nD τ).loc main_arg0)) (m ((c.tc : Thread nD τ).loc main_arg2)))
          (Cert.ReferenceIdeal.ReadP.val_main_v3 (F := Ideal) (m ((c.tc : Thread nD τ).loc main_arg1)))
          (Cert.ReferenceIdeal.ReadP.val_main_v6 (F := Ideal) (m ((c.tc : Thread nD τ).loc main_arg1)))
          (Cert.ReferenceIdeal.ReadP.val_main_v29 (F := Ideal) (m ((c.tc : Thread nD τ).loc main_arg1)))
          (m ((c.tc : Thread nD τ).loc main_arg3)))
        (m ((c.tc : Thread nD τ).loc main_arg4))
        (shapeCast S1x64 (m ((c.tc : Thread nD τ).loc main_arg5)) shapeCasts_S64_S1x64) := by
  refine ((W6_arr m ρ c 3).trans (Head.final (V5 m ρ) c)).trans ?_
  show Head.head (W5 m ρ c (Proc.devRef .tc main_v46)) (W5 m ρ c (Proc.devRef .tc main_arg4)) (W5 m ρ c (Proc.devRef .tc main_v47)) = _
  rw [entry1_agg, entry1_w, entry1_b, exit0_h, exit0_src, exit0_dst, exit0_norm, exit0_b1, exit0_w2, exit0_b2,
    entry0_x, entry0_w1, entry0_b1, entry0_w2, entry0_b2, entry0_src, entry0_dst, entry0_norm]

end Cert.KernelIdeal.Chain

end
-- ==== Proof.Bridge.lean ====
/-
  The kernel's function of the argument arrays is the reference's, at the ideal instance.

  Both programs compute, from the features x, the edge list, the weights W1, W2 and the biases b1, b2:
  h = x·W1; the aggregate a = scatter-add over the edge targets of the normalised rows of h gathered at the edge sources,
  plus b1; the result max(a, 0)·W2 + b2. The index vectors, the normalisation and the aggregation are the same host
  operations in both. The two differ in how the matrix products are made: the kernel's are sums over the contracted
  axis block by block with operands rounded to bf16 (no change on extended reals) and a zero accumulator, the
  reference's are the host's `dot_general`, the same sums; and in the layout of the second bias (a reshape to one row
  read by each block against two broadcasts): the same entry either way. No law of arithmetic beyond that is used, so
  the inputs' finiteness is not needed.
-/
import proofs.«171715_j23175643530014_1_alg».proof.Proof.Chain

set_option maxRecDepth 16384

noncomputable section

namespace Cert.Bridge

open Cert.ReferenceIdeal Cert.ReferenceIdeal.ReadP
open Idealize.ShloMosaic Idealize.ShloMosaic.TcCoe Idealize.SL.Sem
open Idealize.ShloMosaic.ValueIdx (ix1 ix2)

section Aggregate
variable {F : FTy → Type} [FloatOps F]

/-- The reference's aggregate stage is the kernel's aggregation applied to the reference's own stages for the linear
    transform, the index vectors and the normalisation: the same operations, spelt once per program. -/
theorem agg_eq (x : (⟨S50000x128, .f32⟩ : BufTy).Contents (Elt F)) (ei : (⟨S2x800000, .i32⟩ : BufTy).Contents (Elt F))
    (w1 : (⟨S128x128, .f32⟩ : BufTy).Contents (Elt F)) (b1 : (⟨S128, .f32⟩ : BufTy).Contents (Elt F)) :
    Cert.KernelIdeal.Chain.agg (val_main_v30 (F := F) x w1) (val_main_v3 (F := F) ei) (val_main_v6 (F := F) ei) (val_main_v29 (F := F) ei) b1
      = val_main_v46 (F := F) x ei w1 b1 := rfl

end Aggregate

/-- The whole matrix product of the features and the first weight is the host's `dot_general` of them. -/
theorem prod_eq (x : (⟨S50000x128, .f32⟩ : BufTy).Contents (Elt Ideal)) (w1 : (⟨S128x128, .f32⟩ : BufTy).Contents (Elt Ideal)) :
    Cert.KernelIdeal.Linear.prod x w1 = val_main_v30 (F := Ideal) x w1 := by
  funext i
  rw [val_main_v30_apply]
  unfold Cert.KernelIdeal.Linear.prod
  refine Finset.sum_congr rfl fun k _ => ?_
  have el : ix2 (i 0) k = lidx_main_v30 i k := funext fun a => by match a with | ⟨0, _⟩ => rfl | ⟨1, _⟩ => rfl
  have er : ix2 k (i 1) = ridx_main_v30 i k := funext fun a => by match a with | ⟨0, _⟩ => rfl | ⟨1, _⟩ => rfl
  exact congrArg₂ (fun a b : EReal => a * b) (congrArg x el) (congrArg w1 er)

section Tail
variable {F : FTy → Type} [FloatOps F]

/-- The reference's last stages over a VARIABLE aggregate: clamp below at zero, multiply by the second weight on the
    host, add the second bias broadcast along the rows. -/
def tail (a : (⟨S50000x128, .f32⟩ : BufTy).Contents (Elt F)) (w2 : (⟨S128x64, .f32⟩ : BufTy).Contents (Elt F))
    (b2 : (⟨S64, .f32⟩ : BufTy).Contents (Elt F)) : (⟨S50000x64, .f32⟩ : BufTy).Contents (Elt F) :=
  addf (Host.dotGeneral dot_S50000x128_S128x64_S50000x64_1_0_0_1_n_n none (maximumf a (val_main_call1_v0 (F := F))) w2) (val_main_v50 (F := F) b2)

/-- The reference's last stage is `tail` of its aggregate stage. -/
theorem tail_eq (x : (⟨S50000x128, .f32⟩ : BufTy).Contents (Elt F)) (ei : (⟨S2x800000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    val_main_v51 (F := F) x ei w1 b1 w2 b2 = tail (val_main_v46 (F := F) x ei w1 b1) w2 b2 := rfl

end Tail

/-- The host's product with the second weight at an index: the sum over the contracted axis of the left operand's row
    against the weight's column. -/
theorem dot_apply (y : FVec Ideal S50000x128 .f32) (w2 : FVec Ideal S128x64 .f32) (i : S50000x64.Idx) :
    Host.dotGeneral (F := Ideal) dot_S50000x128_S128x64_S50000x64_1_0_0_1_n_n none y w2 i = ∑ k : Fin 128, y (lidx_main_v48 i k) * w2 (ridx_main_v48 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v48 i k := funext fun a => Fin.ext (by
    match a with
    | ⟨0, _⟩ => exact lhs_main_v48_0 _ _
    | ⟨1, _⟩ => exact (lhs_main_v48_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v48 i k := funext fun a => Fin.ext (by
    match a with
    | ⟨0, _⟩ => exact (rhs_main_v48_0 _ _).trans hk
    | ⟨1, _⟩ => exact rhs_main_v48_1 _ _)
  rw [el, er]

/-- The kernel's head of any aggregate is the reference's last stages of it: the same sum of clamped features against
    the weight's column, and the same bias entry whichever way the bias is laid out. -/
theorem head_eq_tail (a : (⟨S50000x128, .f32⟩ : BufTy).Contents (Elt Ideal)) (w2 : (⟨S128x64, .f32⟩ : BufTy).Contents (Elt Ideal))
    (b2 : (⟨S64, .f32⟩ : BufTy).Contents (Elt Ideal)) :
    Cert.KernelIdeal.Head.head a w2 (shapeCast Cert.KernelIdeal.S1x64 b2 Cert.KernelIdeal.Gen.shapeCasts_S64_S1x64) = tail (F := Ideal) a w2 b2 := by
  funext i
  unfold Cert.KernelIdeal.Head.head tail
  refine Eq.trans ?_ (congrArg₂ (fun u v : EReal => u + v) (dot_apply (maximumf a (val_main_call1_v0 (F := Ideal))) w2 i).symm
    ((val_main_v50_apply b2 i).trans (val_main_v49_apply b2 (idx_main_v50 i))).symm)
  refine congrArg₂ (fun u v : EReal => u + v) (Finset.sum_congr rfl fun k _ => ?_) ?_
  · have el : ix2 (i 0) k = lidx_main_v48 i k := funext fun d => by match d with | ⟨0, _⟩ => rfl | ⟨1, _⟩ => rfl
    have er : ix2 k (i 1) = ridx_main_v48 i k := funext fun d => by match d with | ⟨0, _⟩ => rfl | ⟨1, _⟩ => rfl
    have hz : val_main_call1_v0 (F := Ideal) (lidx_main_v48 i k) = Ideal.ofBits .f32 0x00000000#32 :=
      val_main_call1_v0_apply (F := Ideal) (lidx_main_v48 i k)
    show _ = max (a (lidx_main_v48 i k)) (val_main_call1_v0 (F := Ideal) (lidx_main_v48 i k)) * w2 (ridx_main_v48 i k)
    rw [hz, ← el, ← er]
    rfl
  · refine (ValueIdx.shapeCast_a_1a_apply b2 Cert.KernelIdeal.Gen.shapeCasts_S64_S1x64 (0 : Fin 1) (i 1)).trans ?_
    exact congrArg b2 (funext fun d => by match d with | ⟨0, _⟩ => rfl)

/-- The kernel's function of the argument arrays is the reference's last stage. -/
theorem result_eq (x : (⟨S50000x128, .f32⟩ : BufTy).Contents (Elt Ideal)) (ei : (⟨S2x800000, .i32⟩ : BufTy).Contents (Elt Ideal))
    (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    Cert.KernelIdeal.Head.head
        (Cert.KernelIdeal.Chain.agg (Cert.KernelIdeal.Linear.prod x w1) (val_main_v3 (F := Ideal) ei) (val_main_v6 (F := Ideal) ei) (val_main_v29 (F := Ideal) ei) b1)
        w2 (shapeCast Cert.KernelIdeal.S1x64 b2 Cert.KernelIdeal.Gen.shapeCasts_S64_S1x64)
      = val_main_v51 (F := Ideal) x ei w1 b1 w2 b2 := by
  rw [prod_eq, agg_eq, tail_eq]
  exact head_eq_tail _ w2 b2

end Cert.Bridge

end
-- ==== Proof.lean ====
/- The proof of `Cert.Claim`: a GCN layer (linear transform, degree-normalised aggregation over the edges with self loops,
   ReLU and a linear head) whose two dense products run as pallas_calls tiled over the nodes, against the plain jnp
   reference.

   The frames: the kernel's and its idealization's are the generated frames of the two-region program; the reference
   has no kernel, so its frame is its run with the result dropped. `preserves`: the ideal pass rewrote nothing.
   `algebraic`: at the ideal instance the kernel's @main ends with its result array holding
   `head (agg (prod x W1) src dst norm b1) W2 b2` (Proof/Chain.lean: `prod` the whole matrix product the first
   pallas_call's ten blocks tile, Proof/Linear.lean; `agg` the host operations between the two calls; `head` what the second
   pallas_call's ten blocks tile, Proof/Head.lean), and that function of the argument arrays is the reference's last stage
   (Proof/Bridge.lean): the products are the same sums over the contracted axis, the host operations between them are
   the same operations, and the bias row is the same entries. The arguments agree, so the two results are equal. -/
import proofs.«171715_j23175643530014_1_alg».proof.Defs
import proofs.«171715_j23175643530014_1_alg».proof.Proof.Gen.Kernel
import proofs.«171715_j23175643530014_1_alg».proof.Proof.Gen.Kernel.Skeleton
import proofs.«171715_j23175643530014_1_alg».proof.Proof.Gen.Kernel.Launch
import proofs.«171715_j23175643530014_1_alg».proof.Proof.Gen.Kernel.Points
import proofs.«171715_j23175643530014_1_alg».proof.Proof.Gen.Kernel.Frame
import proofs.«171715_j23175643530014_1_alg».proof.Proof.Gen.KernelIdeal
import proofs.«171715_j23175643530014_1_alg».proof.Proof.Gen.KernelIdeal.Skeleton
import proofs.«171715_j23175643530014_1_alg».proof.Proof.Gen.KernelIdeal.Launch
import proofs.«171715_j23175643530014_1_alg».proof.Proof.Gen.KernelIdeal.Points
import proofs.«171715_j23175643530014_1_alg».proof.Proof.Gen.KernelIdeal.Frame
import proofs.«171715_j23175643530014_1_alg».proof.Proof.Gen.ReferenceIdeal
import proofs.«171715_j23175643530014_1_alg».proof.Proof.Gen.Pre_finite_inputs
import proofs.«171715_j23175643530014_1_alg».proof.Proof.KernelIdealRun
import proofs.«171715_j23175643530014_1_alg».proof.Proof.RefRun
import proofs.«171715_j23175643530014_1_alg».proof.Proof.RefRead
import proofs.«171715_j23175643530014_1_alg».proof.Proof.Bridge
import Idealize.ShloMosaic.Adequacy
import Idealize.ShloMosaic.Init

noncomputable section

namespace Cert.Proof

open Idealize.ShloMosaic Idealize.SL.Sem

/-- From memories agreeing on the arguments both idealized programs run and end with equal results: the kernel's result
    array at its function of the arguments, the reference's at its last stage of the same arguments, one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 m ρ c (Proc.devRef .tc Cert.KernelIdeal.main_v48),
    Cert.KernelIdeal.GenRun.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v51_eq, (hagree c).1, (hagree c).2.1, (hagree c).2.2.1, (hagree c).2.2.2.1,
    (hagree c).2.2.2.2.1, (hagree c).2.2.2.2.2]
  exact ((Cert.KernelIdeal.Chain.result m ρ c).trans (Cert.Bridge.result_eq _ _ _ _ _ _)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
